-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S2x400000 : Shape := ⟨2, ![2, 400000]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x1024 .f32) (main_arg1 : IVec S2x400000 32) (main_arg2 : FVec F S1024x512 .f32) (main_arg3 : FVec F S512 .f32) (main_arg4 : FVec F S512x1 .f32) (main_arg5 : FVec F S1 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S1024x512 .f32 := Host.absf main_arg2
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1 .f32 := Host.absf main_arg4
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg5 main_v13 main_v16
-- ==== Kernel.lean ====
abbrev S50000x1024 : Shape := ⟨2, ![50000, 1024]⟩
abbrev S2x400000 : Shape := ⟨2, ![2, 400000]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S50000x512 : Shape := ⟨2, ![50000, 512]⟩
abbrev S2000x1024 : Shape := ⟨2, ![2000, 1024]⟩
abbrev S2000x512 : Shape := ⟨2, ![2000, 512]⟩
abbrev S400000x512 : Shape := ⟨2, ![400000, 512]⟩
abbrev S1x512 : Shape := ⟨2, ![1, 512]⟩
abbrev S1x1 : Shape := ⟨2, ![1, 1]⟩

abbrev nBuf : Space → Nat
  | .hbm => 94
  | .vmem => 12
  | .smem => 0
  | _ => 0

abbrev bufTy : (tb : Table) → Fin (tcTables nBuf tb) → BufTy
  | .hbm, ⟨0, _⟩ => ⟨S50000x1024, .f32⟩
  | .hbm, ⟨1, _⟩ => ⟨S2x400000, .i32⟩
  | .hbm, ⟨2, _⟩ => ⟨S1024x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S_, .f32⟩
  | .hbm, ⟨11, _⟩ => ⟨S400000, .f32⟩
  | .hbm, ⟨12, _⟩ => ⟨S_, .f32⟩
  | .hbm, ⟨13, _⟩ => ⟨S50000, .f32⟩
  | .hbm, ⟨14, _⟩ => ⟨S400000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000x1024, .bf16⟩
  | .hbm, ⟨23, _⟩ => ⟨S1024x512, .bf16⟩
  | .hbm, ⟨24, _⟩ => ⟨S50000x512, .f32⟩
  | .hbm, ⟨25, _⟩ => ⟨S_, .i32⟩
  | .hbm, ⟨26, _⟩ => ⟨S400000, .i32⟩
  | .hbm, ⟨27, _⟩ => ⟨S400000, .i1⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S400000x1, .i32⟩
  | .hbm, ⟨33, _⟩ => ⟨S400000, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000, .f32⟩
  | .hbm, ⟨43, _⟩ => ⟨S400000, .f32⟩
  | .hbm, ⟨44, _⟩ => ⟨S400000x1, .f32⟩
  | .hbm, ⟨45, _⟩ => ⟨S_, .i32⟩
  | .hbm, ⟨46, _⟩ => ⟨S400000, .i32⟩
  | .hbm, ⟨47, _⟩ => ⟨S400000, .i1⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S400000x1, .i32⟩
  | .hbm, ⟨53, _⟩ => ⟨S400000x512, .f32⟩
  | .hbm, ⟨54, _⟩ => ⟨S400000x512, .f32⟩
  | .hbm, ⟨55, _⟩ => ⟨S400000x512, .f32⟩
  | .hbm, ⟨56, _⟩ => ⟨S_, .f32⟩
  | .hbm, ⟨57, _⟩ => ⟨S50000x512, .f32⟩
  | .hbm, ⟨58, _⟩ => ⟨S400000x1, .i32⟩
  | .hbm, ⟨59, _⟩ => ⟨S50000x512, .f32⟩
  | .hbm, ⟨60, _⟩ => ⟨S50000x512, .f32⟩
  | .hbm, ⟨61, _⟩ => ⟨S50000x512, .f32⟩
  | .hbm, ⟨62, _⟩ => ⟨S1x512, .f32⟩
  | .hbm, ⟨63, _⟩ => ⟨S50000x512, .f32⟩
  | .hbm, ⟨64, _⟩ => ⟨S50000x1, .f32⟩
  | .hbm, ⟨65, _⟩ => ⟨S_, .i32⟩
  | .hbm, ⟨66, _⟩ => ⟨S400000, .i32⟩
  | .hbm, ⟨67, _⟩ => ⟨S400000, .i1⟩
  | .hbm, ⟨68, _⟩ => ⟨S_, .i32⟩
  | .hbm, ⟨69, _⟩ => ⟨S400000, .i32⟩
  | .hbm, ⟨70, _⟩ => ⟨S400000, .i32⟩
  | .hbm, ⟨71, _⟩ => ⟨S400000, .i32⟩
  | .hbm, ⟨72, _⟩ => ⟨S400000x1, .i32⟩
  | .hbm, ⟨73, _⟩ => ⟨S400000x1, .f32⟩
  | .hbm, ⟨74, _⟩ => ⟨S400000x1, .f32⟩
  | .hbm, ⟨75, _⟩ => ⟨S_, .f32⟩
  | .hbm, ⟨76, _⟩ => ⟨S50000x1, .f32⟩
  | .hbm, ⟨77, _⟩ => ⟨S400000x1, .i32⟩
  | .hbm, ⟨78, _⟩ => ⟨S50000x1, .f32⟩
  | .hbm, ⟨79, _⟩ => ⟨S50000x1, .f32⟩
  | .hbm, ⟨80, _⟩ => ⟨S50000x1, .f32⟩
  | .hbm, ⟨81, _⟩ => ⟨S1x1, .f32⟩
  | .hbm, ⟨82, _⟩ => ⟨S50000x1, .f32⟩
  | .hbm, ⟨83, _⟩ => ⟨S50000x1, .f32⟩
  | .hbm, ⟨84, _⟩ => ⟨S50000x1, .f32⟩
  | .hbm, ⟨85, _⟩ => ⟨S50000, .f32⟩
  | .hbm, ⟨86, _⟩ => ⟨S_, .f32⟩
  | .hbm, ⟨87, _⟩ => ⟨S50000, .f32⟩
  | .hbm, ⟨88, _⟩ => ⟨S50000, .i1⟩
  | .hbm, ⟨89, _⟩ => ⟨S50000, .f32⟩
  | .hbm, ⟨90, _⟩ => ⟨S_, .f32⟩
  | .hbm, ⟨91, _⟩ => ⟨S_, .f32⟩
  | .hbm, ⟨92, _⟩ => ⟨S50000, .f32⟩
  | .hbm, ⟨93, _⟩ => ⟨S50000, .f32⟩
  | .local _ .vmem, ⟨0, _⟩ => ⟨S2000x1024, .bf16⟩
  | .local _ .vmem, ⟨1, _⟩ => ⟨S2000x1024, .bf16⟩
  | .local _ .vmem, ⟨2, _⟩ => ⟨S1024x512, .bf16⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S2000x512, .f32⟩
  | .local _ .vmem, ⟨9, _⟩ => ⟨S1x512, .f32⟩
  | .local _ .vmem, ⟨10, _⟩ => ⟨S2000x512, .f32⟩
  | .local _ .vmem, ⟨11, _⟩ => ⟨S2000x512, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_11 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_12 : Ref sig .tc := ⟨.hbm, 90, rfl⟩
abbrev main_call0_v0 : Ref sig .tc := ⟨.hbm, 91, rfl⟩
abbrev main_call0_v1 : Ref sig .tc := ⟨.hbm, 92, rfl⟩
abbrev main_v70 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bitsLt_bf16_f32 : FTy.bits .bf16 < FTy.bits .f32
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2000x512_S2000x512_0_0 : ∀ a, (![0, 0] : Fin 2 → Nat) a + S2000x512.size a ≤ S2000x512.size a
  h_S2000x512 : 0 < S2000x512.numel
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  shapeCasts_S512_S1x512 : S512.ShapeCasts S1x512
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  slices_S50000x1024_S50000x1_0_0 : S50000x1024.Slices ![0, 0] S50000x1
  shapeCasts_S50000x1_S50000 : S50000x1.ShapeCasts S50000
  scatter_S50000_S400000x1_S400000_n_0_0_1_wf : ScatterDims.WF S50000 S400000x1 S400000 [] [0] [0] 1
  dot_S2000x1024_S1024x512_S2000x512_1_0_0_1_n_n_wf : DotDims.WF S2000x1024 S1024x512 S2000x512 [1] [0] [0] [1] [] []
  gather_S50000_S400000x1_S400000_n_0_n_n_0_1_1_wf : GatherDims.WF S50000 S400000x1 S400000 [] [0] [] [0] [] 1 ![1]
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x1_S50000x1_1_0_0_1_n_n_wf : DotDims.WF S50000x512 S512x1 S50000x1 [1] [0] [0] [1] [] []
  gather_S50000x1_S400000x1_S400000x1_1_0_n_n_0_1_11_wf : GatherDims.WF S50000x1 S400000x1 S400000x1 [1] [0] [] [0] [] 1 ![1, 1]
  scatter_S50000x1_S400000x1_S400000x1_1_0_0_1_wf : ScatterDims.WF S50000x1 S400000x1 S400000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .bf16 = 32 ∨ (Rect.block (s := S50000x1024) S2000x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S50000x512.size a
  hwx1_1 : ∀ i : grid1.Coords, EltTy.bits .f32 = 32 ∨ (Rect.block (s := S50000x512) S2000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x512.size a ≤ S50000x512.size a
  hwx1_3 : ∀ i : grid1.Coords, EltTy.bits .f32 = 32 ∨ (Rect.block (s := S50000x512) S2000x512.size (cc1_transform_3 i) (hinb1_3 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S2000x1024_S1024x512_S2000x512_1_0_0_1_n_n : DotDims S2000x1024 S1024x512 S2000x512 where
  lhsContracting := [1]
  rhsContracting := [0]
  lhsNonContracting := [0]
  rhsNonContracting := [1]
  lhsBatch := []
  rhsBatch := []
  wf := dot_S2000x1024_S1024x512_S2000x512_1_0_0_1_n_n_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x1_S50000x1_1_0_0_1_n_n : DotDims S50000x512 S512x1 S50000x1 where
  lhsContracting := [1]
  rhsContracting := [0]
  lhsNonContracting := [0]
  rhsNonContracting := [1]
  lhsBatch := []
  rhsBatch := []
  wf := dot_S50000x512_S512x1_S50000x1_1_0_0_1_n_n_wf
def gather_S50000x1_S400000x1_S400000x1_1_0_n_n_0_1_11 : GatherDims S50000x1 S400000x1 S400000x1 where
  offsetDims := [1]
  collapsedSliceDims := [0]
  operandBatchingDims := []
  startIndicesBatchingDims := []
  startIndexMap := [0]
  indexVectorDim := 1
  sliceSizes := ![1, 1]
  wf := gather_S50000x1_S400000x1_S400000x1_1_0_n_n_0_1_11_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf

abbrev win0_0 : Pipeline.Window sig grid0 :=
  Pipeline.Window.ofSpec (Memref.whole main_v13) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x1024 : Shape := ⟨2, ![50000, 1024]⟩
abbrev S2x400000 : Shape := ⟨2, ![2, 400000]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S50000x512 : Shape := ⟨2, ![50000, 512]⟩
abbrev S400000x512 : Shape := ⟨2, ![400000, 512]⟩
abbrev S50000x1 : Shape := ⟨2, ![50000, 1]⟩
abbrev S1x512 : Shape := ⟨2, ![1, 512]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S2x400000, .i32⟩
  | .hbm, ⟨2, _⟩ => ⟨S1024x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S_, .f32⟩
  | .hbm, ⟨11, _⟩ => ⟨S400000, .f32⟩
  | .hbm, ⟨12, _⟩ => ⟨S_, .f32⟩
  | .hbm, ⟨13, _⟩ => ⟨S50000, .f32⟩
  | .hbm, ⟨14, _⟩ => ⟨S400000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000x512, .f32⟩
  | .hbm, ⟨21, _⟩ => ⟨S_, .i32⟩
  | .hbm, ⟨22, _⟩ => ⟨S400000, .i32⟩
  | .hbm, ⟨23, _⟩ => ⟨S400000, .i1⟩
  | .hbm, ⟨24, _⟩ => ⟨S_, .i32⟩
  | .hbm, ⟨25, _⟩ => ⟨S400000, .i32⟩
  | .hbm, ⟨26, _⟩ => ⟨S400000, .i32⟩
  | .hbm, ⟨27, _⟩ => ⟨S400000, .i32⟩
  | .hbm, ⟨28, _⟩ => ⟨S400000x1, .i32⟩
  | .hbm, ⟨29, _⟩ => ⟨S400000, .f32⟩
  | .hbm, ⟨30, _⟩ => ⟨S_, .i32⟩
  | .hbm, ⟨31, _⟩ => ⟨S400000, .i32⟩
  | .hbm, ⟨32, _⟩ => ⟨S400000, .i1⟩
  | .hbm, ⟨33, _⟩ => ⟨S_, .i32⟩
  | .hbm, ⟨34, _⟩ => ⟨S400000, .i32⟩
  | .hbm, ⟨35, _⟩ => ⟨S400000, .i32⟩
  | .hbm, ⟨36, _⟩ => ⟨S400000, .i32⟩
  | .hbm, ⟨37, _⟩ => ⟨S400000x1, .i32⟩
  | .hbm, ⟨38, _⟩ => ⟨S400000, .f32⟩
  | .hbm, ⟨39, _⟩ => ⟨S400000, .f32⟩
  | .hbm, ⟨40, _⟩ => ⟨S400000x1, .f32⟩
  | .hbm, ⟨41, _⟩ => ⟨S_, .i32⟩
  | .hbm, ⟨42, _⟩ => ⟨S400000, .i32⟩
  | .hbm, ⟨43, _⟩ => ⟨S400000, .i1⟩
  | .hbm, ⟨44, _⟩ => ⟨S_, .i32⟩
  | .hbm, ⟨45, _⟩ => ⟨S400000, .i32⟩
  | .hbm, ⟨46, _⟩ => ⟨S400000, .i32⟩
  | .hbm, ⟨47, _⟩ => ⟨S400000, .i32⟩
  | .hbm, ⟨48, _⟩ => ⟨S400000x1, .i32⟩
  | .hbm, ⟨49, _⟩ => ⟨S400000x512, .f32⟩
  | .hbm, ⟨50, _⟩ => ⟨S400000x512, .f32⟩
  | .hbm, ⟨51, _⟩ => ⟨S400000x512, .f32⟩
  | .hbm, ⟨52, _⟩ => ⟨S_, .f32⟩
  | .hbm, ⟨53, _⟩ => ⟨S50000x512, .f32⟩
  | .hbm, ⟨54, _⟩ => ⟨S400000x1, .i32⟩
  | .hbm, ⟨55, _⟩ => ⟨S50000x512, .f32⟩
  | .hbm, ⟨56, _⟩ => ⟨S50000, .f32⟩
  | .hbm, ⟨57, _⟩ => ⟨S50000x1, .f32⟩
  | .hbm, ⟨58, _⟩ => ⟨S50000x512, .f32⟩
  | .hbm, ⟨59, _⟩ => ⟨S50000x512, .f32⟩
  | .hbm, ⟨60, _⟩ => ⟨S50000x512, .f32⟩
  | .hbm, ⟨61, _⟩ => ⟨S1x512, .f32⟩
  | .hbm, ⟨62, _⟩ => ⟨S50000x512, .f32⟩
  | .hbm, ⟨63, _⟩ => ⟨S50000x512, .f32⟩
  | .hbm, ⟨64, _⟩ => ⟨S_, .f32⟩
  | .hbm, ⟨65, _⟩ => ⟨S50000x512, .f32⟩
  | .hbm, ⟨66, _⟩ => ⟨S50000x512, .f32⟩
  | .hbm, ⟨67, _⟩ => ⟨S50000x1, .f32⟩
  | .hbm, ⟨68, _⟩ => ⟨S_, .i32⟩
  | .hbm, ⟨69, _⟩ => ⟨S400000, .i32⟩
  | .hbm, ⟨70, _⟩ => ⟨S400000, .i1⟩
  | .hbm, ⟨71, _⟩ => ⟨S_, .i32⟩
  | .hbm, ⟨72, _⟩ => ⟨S400000, .i32⟩
  | .hbm, ⟨73, _⟩ => ⟨S400000, .i32⟩
  | .hbm, ⟨74, _⟩ => ⟨S400000, .i32⟩
  | .hbm, ⟨75, _⟩ => ⟨S400000x1, .i32⟩
  | .hbm, ⟨76, _⟩ => ⟨S400000, .f32⟩
  | .hbm, ⟨77, _⟩ => ⟨S_, .i32⟩
  | .hbm, ⟨78, _⟩ => ⟨S400000, .i32⟩
  | .hbm, ⟨79, _⟩ => ⟨S400000, .i1⟩
  | .hbm, ⟨80, _⟩ => ⟨S_, .i32⟩
  | .hbm, ⟨81, _⟩ => ⟨S400000, .i32⟩
  | .hbm, ⟨82, _⟩ => ⟨S400000, .i32⟩
  | .hbm, ⟨83, _⟩ => ⟨S400000, .i32⟩
  | .hbm, ⟨84, _⟩ => ⟨S400000x1, .i32⟩
  | .hbm, ⟨85, _⟩ => ⟨S400000, .f32⟩
  | .hbm, ⟨86, _⟩ => ⟨S400000, .f32⟩
  | .hbm, ⟨87, _⟩ => ⟨S400000x1, .f32⟩
  | .hbm, ⟨88, _⟩ => ⟨S_, .i32⟩
  | .hbm, ⟨89, _⟩ => ⟨S400000, .i32⟩
  | .hbm, ⟨90, _⟩ => ⟨S400000, .i1⟩
  | .hbm, ⟨91, _⟩ => ⟨S_, .i32⟩
  | .hbm, ⟨92, _⟩ => ⟨S400000, .i32⟩
  | .hbm, ⟨93, _⟩ => ⟨S400000, .i32⟩
  | .hbm, ⟨94, _⟩ => ⟨S400000, .i32⟩
  | .hbm, ⟨95, _⟩ => ⟨S400000x1, .i32⟩
  | .hbm, ⟨96, _⟩ => ⟨S400000x1, .f32⟩
  | .hbm, ⟨97, _⟩ => ⟨S400000x1, .f32⟩
  | .hbm, ⟨98, _⟩ => ⟨S_, .f32⟩
  | .hbm, ⟨99, _⟩ => ⟨S50000x1, .f32⟩
  | .hbm, ⟨100, _⟩ => ⟨S400000x1, .i32⟩
  | .hbm, ⟨101, _⟩ => ⟨S50000x1, .f32⟩
  | .hbm, ⟨102, _⟩ => ⟨S50000, .f32⟩
  | .hbm, ⟨103, _⟩ => ⟨S50000x1, .f32⟩
  | .hbm, ⟨104, _⟩ => ⟨S50000x1, .f32⟩
  | .hbm, ⟨105, _⟩ => ⟨S50000x1, .f32⟩
  | .hbm, ⟨106, _⟩ => ⟨S1x1, .f32⟩
  | .hbm, ⟨107, _⟩ => ⟨S50000x1, .f32⟩
  | .hbm, ⟨108, _⟩ => ⟨S50000x1, .f32⟩
  | .hbm, ⟨109, _⟩ => ⟨S50000x1, .f32⟩
  | .hbm, ⟨110, _⟩ => ⟨S50000, .f32⟩
  | .hbm, ⟨111, _⟩ => ⟨S_, .f32⟩
  | .hbm, ⟨112, _⟩ => ⟨S50000, .f32⟩
  | .hbm, ⟨113, _⟩ => ⟨S50000, .i1⟩
  | .hbm, ⟨114, _⟩ => ⟨S50000, .f32⟩
  | .hbm, ⟨115, _⟩ => ⟨S_, .f32⟩
  | .hbm, ⟨116, _⟩ => ⟨S_, .f32⟩
  | .hbm, ⟨117, _⟩ => ⟨S50000, .f32⟩
  | .hbm, ⟨118, _⟩ => ⟨S50000, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_16 : Ref sig .tc := ⟨.hbm, 115, rfl⟩
abbrev main_call1_v0 : Ref sig .tc := ⟨.hbm, 116, rfl⟩
abbrev main_call1_v1 : Ref sig .tc := ⟨.hbm, 117, rfl⟩
abbrev main_v89 : Ref sig .tc := ⟨.hbm, 118, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  slices_S50000x1024_S50000x1_0_0 : S50000x1024.Slices ![0, 0] S50000x1
  shapeCasts_S50000x1_S50000 : S50000x1.ShapeCasts S50000
  scatter_S50000_S400000x1_S400000_n_0_0_1_wf : ScatterDims.WF S50000 S400000x1 S400000 [] [0] [0] 1
  dot_S50000x1024_S1024x512_S50000x512_1_0_0_1_n_n_wf : DotDims.WF S50000x1024 S1024x512 S50000x512 [1] [0] [0] [1] [] []
  gather_S50000_S400000x1_S400000_n_0_n_n_0_1_1_wf : GatherDims.WF S50000 S400000x1 S400000 [] [0] [] [0] [] 1 ![1]
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x1_S50000x1_1_0_0_1_n_n_wf : DotDims.WF S50000x512 S512x1 S50000x1 [1] [0] [0] [1] [] []
  gather_S50000x1_S400000x1_S400000x1_1_0_n_n_0_1_11_wf : GatherDims.WF S50000x1 S400000x1 S400000x1 [1] [0] [] [0] [] 1 ![1, 1]
  scatter_S50000x1_S400000x1_S400000x1_1_0_0_1_wf : ScatterDims.WF S50000x1 S400000x1 S400000x1 [1] [0] [0] 1

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x1024_S1024x512_S50000x512_1_0_0_1_n_n : DotDims S50000x1024 S1024x512 S50000x512 where
  lhsContracting := [1]
  rhsContracting := [0]
  lhsNonContracting := [0]
  rhsNonContracting := [1]
  lhsBatch := []
  rhsBatch := []
  wf := dot_S50000x1024_S1024x512_S50000x512_1_0_0_1_n_n_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x1_S50000x1_1_0_0_1_n_n : DotDims S50000x512 S512x1 S50000x1 where
  lhsContracting := [1]
  rhsContracting := [0]
  lhsNonContracting := [0]
  rhsNonContracting := [1]
  lhsBatch := []
  rhsBatch := []
  wf := dot_S50000x512_S512x1_S50000x1_1_0_0_1_n_n_wf
def gather_S50000x1_S400000x1_S400000x1_1_0_n_n_0_1_11 : GatherDims S50000x1 S400000x1 S400000x1 where
  offsetDims := [1]
  collapsedSliceDims := [0]
  operandBatchingDims := []
  startIndicesBatchingDims := []
  startIndexMap := [0]
  indexVectorDim := 1
  sliceSizes := ![1, 1]
  wf := gather_S50000x1_S400000x1_S400000x1_1_0_n_n_0_1_11_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf

class Facts : Prop extends Facts₀ where

variable [Facts]
-- ==== Proof.Spec.lean ====
/-
  The two-layer graph convolution both programs compute, as named functions of the arrays.

  With `e` the 2 × 400000 edge list (row 0 the sources, row 1 the targets, a negative endpoint wrapped once by the
  node count 50000), `d = rsqrt (1 + in-degree)` per node, the edge weight `d[src] · d[tgt]` and the self weight
  `d · d`, one layer sends a node feature array `h` to

      scatter-add over the edges of (weight · h[src]) into the targets  +  h · (d · d).

  The first layer applies it to `h0 = x · W1` (50000 × 512), adds the bias row and clamps at zero; the second applies
  it to `h1 · W2` (50000 × 1) and adds `b2`; the result keeps the entries of the nodes whose first feature equals 1
  and is zero elsewhere. Everything downstream of `h0` is the same chain of host operations in both programs, so it is
  named here once, over the reference's own dimension records, and never opened: the two programs differ only in how
  `h0` and the clamped first layer are produced.
-/
import proofs.«145951_j57148834840787_1_alg».proof.Proof.Gen.ReferenceIdeal

noncomputable section

namespace Cert.GNN

open Cert.ReferenceIdeal Cert.ReferenceIdeal.Gen Idealize.ShloMosaic

variable {F : FTy → Type} [FloatOps F]

/-- The edge list's row of sources, as a vector. -/
def srcOf (e : (⟨S2x400000, .i32⟩ : BufTy).Contents (Elt F)) : (⟨S400000, .i32⟩ : BufTy).Contents (Elt F) :=
  shapeCast S400000 (extractStridedSlice S1x400000 ![0, 0] e slices_S2x400000_S1x400000_0_0) shapeCasts_S1x400000_S400000

/-- The edge list's row of targets, as a vector. -/
def tgtOf (e : (⟨S2x400000, .i32⟩ : BufTy).Contents (Elt F)) : (⟨S400000, .i32⟩ : BufTy).Contents (Elt F) :=
  shapeCast S400000 (extractStridedSlice S1x400000 ![1, 0] e slices_S2x400000_S1x400000_1_0) shapeCasts_S1x400000_S400000

/-- A negative endpoint counts from the end: the node count is added to it once. -/
def wrap (v : (⟨S400000, .i32⟩ : BufTy).Contents (Elt F)) : (⟨S400000, .i32⟩ : BufTy).Contents (Elt F) :=
  select (cmpi .slt v (broadcastInDim S400000 ![] bcast_S_S400000 (constantI S_ 32 0#32)))
    (addi v (broadcastInDim S400000 ![] bcast_S_S400000 (constantI S_ 32 50000#32))) v

/-- A vector of endpoints as the one-column index array a gather or a scatter takes. -/
def col (v : (⟨S400000, .i32⟩ : BufTy).Contents (Elt F)) : (⟨S400000x1, .i32⟩ : BufTy).Contents (Elt F) :=
  broadcastInDim S400000x1 ![0] bcast_S400000_S400000x1_0 v

/-- `d`: the reciprocal square root of one plus each node's in-degree (a scatter-add of ones into the targets). -/
def dinv (e : (⟨S2x400000, .i32⟩ : BufTy).Contents (Elt F)) : FVec F S50000 .f32 :=
  Host.rsqrt (addf
    (Host.scatterAdd scatter_S50000_S400000x1_S400000_n_0_0_1
      (broadcastInDim S50000 ![] bcast_S_S50000 (constant S_ .f32 0x00000000#32))
      (col (F := F) (tgtOf (F := F) e))
      (broadcastInDim S400000 ![] bcast_S_S400000 (constant S_ .f32 0x3F800000#32)))
    (broadcastInDim S50000 ![] bcast_S_S50000 (constant S_ .f32 0x3F800000#32)))

/-- The edge weights `d[src] · d[tgt]`, as a column. -/
def weight (e : (⟨S2x400000, .i32⟩ : BufTy).Contents (Elt F)) : FVec F S400000x1 .f32 :=
  broadcastInDim S400000x1 ![0] bcast_S400000_S400000x1_0
    (mulf (Host.gather gather_S50000_S400000x1_S400000_n_0_n_n_0_1_1 (dinv e) (col (F := F) (wrap (F := F) (srcOf (F := F) e))))
      (Host.gather gather_S50000_S400000x1_S400000_n_0_n_n_0_1_1 (dinv e) (col (F := F) (wrap (F := F) (tgtOf (F := F) e)))))

/-- The self weights `d · d`, as a column. -/
def selfWeight (e : (⟨S2x400000, .i32⟩ : BufTy).Contents (Elt F)) : FVec F S50000x1 .f32 :=
  broadcastInDim S50000x1 ![0] bcast_S50000_S50000x1_0 (mulf (dinv e) (dinv e))

/-- The first layer's neighbour sum: weight · h0[src], scatter-added into the targets. -/
def neighbours (e : (⟨S2x400000, .i32⟩ : BufTy).Contents (Elt F)) (h0 : FVec F S50000x512 .f32) : FVec F S50000x512 .f32 :=
  Host.scatterAdd scatter_S50000x512_S400000x1_S400000x512_1_0_0_1
    (broadcastInDim S50000x512 ![] bcast_S_S50000x512 (constant S_ .f32 0x00000000#32))
    (col (F := F) (tgtOf (F := F) e))
    (mulf (broadcastInDim S400000x512 ![0, 1] bcast_S400000x1_S400000x512_0_1 (weight e))
      (Host.gather gather_S50000x512_S400000x1_S400000x512_1_0_n_n_0_1_1512 h0 (col (F := F) (wrap (F := F) (srcOf (F := F) e)))))

/-- The first layer's self term: h0 · (d · d). -/
def selfTerm (e : (⟨S2x400000, .i32⟩ : BufTy).Contents (Elt F)) (h0 : FVec F S50000x512 .f32) : FVec F S50000x512 .f32 :=
  mulf h0 (broadcastInDim S50000x512 ![0, 1] bcast_S50000x1_S50000x512_0_1 (selfWeight e))

/-- Neighbour sum plus self term plus the bias row, clamped at zero. -/
def clamp (a s : FVec F S50000x512 .f32) (b1 : FVec F S512 .f32) : FVec F S50000x512 .f32 :=
  maximumf (addf (addf a s)
      (broadcastInDim S50000x512 ![0, 1] bcast_S1x512_S50000x512_0_1 (broadcastInDim S1x512 ![1] bcast_S512_S1x512_1 b1)))
    (broadcastInDim S50000x512 ![] bcast_S_S50000x512 (constant S_ .f32 0x00000000#32))

/-- The nodes whose first feature equals 1. -/
def mask (x : FVec F S50000x1024 .f32) : (⟨S50000, .i1⟩ : BufTy).Contents (Elt F) :=
  cmpf .oeq (shapeCast S50000 (extractStridedSlice S50000x1 ![0, 0] x slices_S50000x1024_S50000x1_0_0) shapeCasts_S50000x1_S50000)
    (broadcastInDim S50000 ![] bcast_S_S50000 (constant S_ .f32 0x3F800000#32))

/-- The second layer on the clamped first layer `h1`: the same aggregation of the one-column product `h1 · W2`, plus `b2`. -/
def secondLayer (e : (⟨S2x400000, .i32⟩ : BufTy).Contents (Elt F)) (w2 : FVec F S512x1 .f32) (b2 : FVec F S1 .f32)
    (h1 : FVec F S50000x512 .f32) : FVec F S50000 .f32 :=
  shapeCast S50000
    (addf
      (addf
        (Host.scatterAdd scatter_S50000x1_S400000x1_S400000x1_1_0_0_1
          (broadcastInDim S50000x1 ![] bcast_S_S50000x1 (constant S_ .f32 0x00000000#32))
          (col (F := F) (tgtOf (F := F) e))
          (mulf (weight e)
            (Host.gather gather_S50000x1_S400000x1_S400000x1_1_0_n_n_0_1_11
              (Host.dotGeneral dot_S50000x512_S512x1_S50000x1_1_0_0_1_n_n none h1 w2) (col (F := F) (wrap (F := F) (srcOf (F := F) e))))))
        (mulf (Host.dotGeneral dot_S50000x512_S512x1_S50000x1_1_0_0_1_n_n none h1 w2) (selfWeight e)))
      (broadcastInDim S50000x1 ![0, 1] bcast_S1x1_S50000x1_0_1 (broadcastInDim S1x1 ![1] bcast_S1_S1x1_1 b2)))
    shapeCasts_S50000x1_S50000

/-- The second layer's entries on the masked nodes, zero elsewhere. -/
def output (x : FVec F S50000x1024 .f32) (e : (⟨S2x400000, .i32⟩ : BufTy).Contents (Elt F)) (w2 : FVec F S512x1 .f32)
    (b2 : FVec F S1 .f32) (h1 : FVec F S50000x512 .f32) : FVec F S50000 .f32 :=
  select (mask x) (secondLayer e w2 b2 h1) (broadcastInDim S50000 ![] bcast_S_S50000 (id (constant S_ .f32 0x00000000#32)))

/-- The whole network on a given first product `h0`. -/
def network (x : FVec F S50000x1024 .f32) (e : (⟨S2x400000, .i32⟩ : BufTy).Contents (Elt F)) (b1 : FVec F S512 .f32)
    (w2 : FVec F S512x1 .f32) (b2 : FVec F S1 .f32) (h0 : FVec F S50000x512 .f32) : FVec F S50000 .f32 :=
  output x e w2 b2 (clamp (neighbours e h0) (selfTerm e h0) b1)

/-- The first product `x · W1` as the host computes it. -/
def hostProduct (x : FVec F S50000x1024 .f32) (w1 : FVec F S1024x512 .f32) : FVec F S50000x512 .f32 :=
  Host.dotGeneral dot_S50000x1024_S1024x512_S50000x512_1_0_0_1_n_n none x w1

end Cert.GNN

end
-- ==== Proof.HostChain.lean ====
/-
  The kernel program's host operations, read at each boundary of its run.

  The program is three stretches of host operations around two kernel regions. A stretch leaves every buffer it
  writes at its operations' composed term of the buffers it reads; a region leaves every buffer but its own arrays
  as it found them. Read forward from the launch, the buffers later stretches use are the named pieces of Spec.lean:
  the endpoints, `d`, the two weights before the first region; the neighbour sum and the self term of the first
  region's product before the second; the masked second layer of the second region's result at the end.
-/
import proofs.«145951_j57148834840787_1_alg».proof.Proof.Gen.KernelIdeal.Frame
import proofs.«145951_j57148834840787_1_alg».proof.Proof.Spec
import Idealize.ShloMosaic.Lib.StableHlo.Run
import Idealize.ShloMosaic.PureOps.Ideal

set_option maxRecDepth 16384

noncomputable section

namespace Cert.GNN.OnKernel

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## Before the first region -/

theorem W1_src : W1 m ρ c (Proc.devRef .tc main_v1) = srcOf (F := Ideal) (m ((c.tc : Thread nD τ).loc main_arg1)) := by
  show StableHlo.after hostOps0 _ (Proc.devRef .tc main_v1) = _
  after_results
  rfl

theorem W1_tgt : W1 m ρ c (Proc.devRef .tc main_v3) = tgtOf (F := Ideal) (m ((c.tc : Thread nD τ).loc main_arg1)) := by
  show StableHlo.after hostOps0 _ (Proc.devRef .tc main_v3) = _
  after_results
  rfl

theorem W1_dinv : W1 m ρ c (Proc.devRef .tc main_v10) = dinv (F := Ideal) (m ((c.tc : Thread nD τ).loc main_arg1)) := by
  show StableHlo.after hostOps0 _ (Proc.devRef .tc main_v10) = _
  after_results
  rfl

theorem W1_selfWeight : W1 m ρ c (Proc.devRef .tc main_v12) = selfWeight (F := Ideal) (m ((c.tc : Thread nD τ).loc main_arg1)) := by
  show StableHlo.after hostOps0 _ (Proc.devRef .tc main_v12) = _
  after_results
  rfl

/-- The first operand of the product: the features, their change of format the identity on the extended reals. -/
theorem W1_x : W1 m ρ c (Proc.devRef .tc main_v13) = (m ((c.tc : Thread nD τ).loc main_arg0)) := by
  show StableHlo.after hostOps0 _ (Proc.devRef .tc main_v13) = _
  after_results
  rfl

/-- The second operand of the product: the first weight matrix, likewise. -/
theorem W1_w1 : W1 m ρ c (Proc.devRef .tc main_v14) = (m ((c.tc : Thread nD τ).loc main_arg2)) := by
  show StableHlo.after hostOps0 _ (Proc.devRef .tc main_v14) = _
  after_results
  rfl

theorem W1_arg0 : W1 m ρ c (Proc.devRef .tc main_arg0) = (m ((c.tc : Thread nD τ).loc main_arg0)) := by
  show StableHlo.after hostOps0 _ (Proc.devRef .tc main_arg0) = _
  after_results

theorem W1_arg3 : W1 m ρ c (Proc.devRef .tc main_arg3) = (m ((c.tc : Thread nD τ).loc main_arg3)) := by
  show StableHlo.after hostOps0 _ (Proc.devRef .tc main_arg3) = _
  after_results

theorem W1_arg4 : W1 m ρ c (Proc.devRef .tc main_arg4) = (m ((c.tc : Thread nD τ).loc main_arg4)) := by
  show StableHlo.after hostOps0 _ (Proc.devRef .tc main_arg4) = _
  after_results

theorem W1_arg5 : W1 m ρ c (Proc.devRef .tc main_arg5) = (m ((c.tc : Thread nD τ).loc main_arg5)) := by
  show StableHlo.after hostOps0 _ (Proc.devRef .tc main_arg5) = _
  after_results

/-! ## The first region leaves them in place -/

theorem W2_src : W2 m ρ c (Proc.devRef .tc main_v1) = srcOf (F := Ideal) (m ((c.tc : Thread nD τ).loc main_arg1)) :=
  (W2_of_ne m ρ c main_v1 (by decide)).trans (W1_src m ρ c)
theorem W2_tgt : W2 m ρ c (Proc.devRef .tc main_v3) = tgtOf (F := Ideal) (m ((c.tc : Thread nD τ).loc main_arg1)) :=
  (W2_of_ne m ρ c main_v3 (by decide)).trans (W1_tgt m ρ c)
theorem W2_dinv : W2 m ρ c (Proc.devRef .tc main_v10) = dinv (F := Ideal) (m ((c.tc : Thread nD τ).loc main_arg1)) :=
  (W2_of_ne m ρ c main_v10 (by decide)).trans (W1_dinv m ρ c)
theorem W2_selfWeight : W2 m ρ c (Proc.devRef .tc main_v12) = selfWeight (F := Ideal) (m ((c.tc : Thread nD τ).loc main_arg1)) :=
  (W2_of_ne m ρ c main_v12 (by decide)).trans (W1_selfWeight m ρ c)
theorem W2_arg0 : W2 m ρ c (Proc.devRef .tc main_arg0) = (m ((c.tc : Thread nD τ).loc main_arg0)) :=
  (W2_of_ne m ρ c main_arg0 (by decide)).trans (W1_arg0 m ρ c)
theorem W2_arg3 : W2 m ρ c (Proc.devRef .tc main_arg3) = (m ((c.tc : Thread nD τ).loc main_arg3)) :=
  (W2_of_ne m ρ c main_arg3 (by decide)).trans (W1_arg3 m ρ c)
theorem W2_arg4 : W2 m ρ c (Proc.devRef .tc main_arg4) = (m ((c.tc : Thread nD τ).loc main_arg4)) :=
  (W2_of_ne m ρ c main_arg4 (by decide)).trans (W1_arg4 m ρ c)
theorem W2_arg5 : W2 m ρ c (Proc.devRef .tc main_arg5) = (m ((c.tc : Thread nD τ).loc main_arg5)) :=
  (W2_of_ne m ρ c main_arg5 (by decide)).trans (W1_arg5 m ρ c)

/-! ## Between the regions, over the first region's product -/

set_option maxHeartbeats 4000000 in
theorem W3_weight : W3 m ρ c (Proc.devRef .tc main_v31) = weight (F := Ideal) (m ((c.tc : Thread nD τ).loc main_arg1)) := by
  show StableHlo.after hostOps1 (W2 m ρ c) (Proc.devRef .tc main_v31) = _
  after_results_simp
  rw [W2_src, W2_tgt, W2_dinv]
  rfl

set_option maxHeartbeats 4000000 in
theorem W3_neighbours : W3 m ρ c (Proc.devRef .tc main_v43) = neighbours (F := Ideal) (m ((c.tc : Thread nD τ).loc main_arg1)) (W2 m ρ c (Proc.devRef .tc main_v15)) := by
  show StableHlo.after hostOps1 (W2 m ρ c) (Proc.devRef .tc main_v43) = _
  after_results_simp
  rw [W2_src, W2_tgt, W2_dinv]
  rfl

set_option maxHeartbeats 4000000 in
theorem W3_selfTerm : W3 m ρ c (Proc.devRef .tc main_v45) = selfTerm (F := Ideal) (m ((c.tc : Thread nD τ).loc main_arg1)) (W2 m ρ c (Proc.devRef .tc main_v15)) := by
  show StableHlo.after hostOps1 (W2 m ρ c) (Proc.devRef .tc main_v45) = _
  after_results_simp
  rw [W2_selfWeight]
  rfl

set_option maxHeartbeats 4000000 in
/-- The bias, as the one-row array the second region takes. -/
theorem W3_biasRow : W3 m ρ c (Proc.devRef .tc main_v46) = shapeCast S1x512 (m ((c.tc : Thread nD τ).loc main_arg3)) shapeCasts_S512_S1x512 := by
  show StableHlo.after hostOps1 (W2 m ρ c) (Proc.devRef .tc main_v46) = _
  after_results_simp
  rw [W2_arg3]
  rfl

set_option maxHeartbeats 4000000 in
theorem W3_src : W3 m ρ c (Proc.devRef .tc main_v1) = srcOf (F := Ideal) (m ((c.tc : Thread nD τ).loc main_arg1)) := by
  show StableHlo.after hostOps1 (W2 m ρ c) (Proc.devRef .tc main_v1) = _
  after_results_simp
  exact W2_src m ρ c

set_option maxHeartbeats 4000000 in
theorem W3_tgt : W3 m ρ c (Proc.devRef .tc main_v3) = tgtOf (F := Ideal) (m ((c.tc : Thread nD τ).loc main_arg1)) := by
  show StableHlo.after hostOps1 (W2 m ρ c) (Proc.devRef .tc main_v3) = _
  after_results_simp
  exact W2_tgt m ρ c

set_option maxHeartbeats 4000000 in
theorem W3_selfWeight : W3 m ρ c (Proc.devRef .tc main_v12) = selfWeight (F := Ideal) (m ((c.tc : Thread nD τ).loc main_arg1)) := by
  show StableHlo.after hostOps1 (W2 m ρ c) (Proc.devRef .tc main_v12) = _
  after_results_simp
  exact W2_selfWeight m ρ c

set_option maxHeartbeats 4000000 in
theorem W3_arg0 : W3 m ρ c (Proc.devRef .tc main_arg0) = (m ((c.tc : Thread nD τ).loc main_arg0)) := by
  show StableHlo.after hostOps1 (W2 m ρ c) (Proc.devRef .tc main_arg0) = _
  after_results_simp
  exact W2_arg0 m ρ c

set_option maxHeartbeats 4000000 in
theorem W3_arg4 : W3 m ρ c (Proc.devRef .tc main_arg4) = (m ((c.tc : Thread nD τ).loc main_arg4)) := by
  show StableHlo.after hostOps1 (W2 m ρ c) (Proc.devRef .tc main_arg4) = _
  after_results_simp
  exact W2_arg4 m ρ c

set_option maxHeartbeats 4000000 in
theorem W3_arg5 : W3 m ρ c (Proc.devRef .tc main_arg5) = (m ((c.tc : Thread nD τ).loc main_arg5)) := by
  show StableHlo.after hostOps1 (W2 m ρ c) (Proc.devRef .tc main_arg5) = _
  after_results_simp
  exact W2_arg5 m ρ c

/-! ## The second region leaves them in place -/

theorem W4_weight : W4 m ρ c (Proc.devRef .tc main_v31) = weight (F := Ideal) (m ((c.tc : Thread nD τ).loc main_arg1)) :=
  (W4_of_ne m ρ c main_v31 (by decide)).trans (W3_weight m ρ c)
theorem W4_src : W4 m ρ c (Proc.devRef .tc main_v1) = srcOf (F := Ideal) (m ((c.tc : Thread nD τ).loc main_arg1)) :=
  (W4_of_ne m ρ c main_v1 (by decide)).trans (W3_src m ρ c)
theorem W4_tgt : W4 m ρ c (Proc.devRef .tc main_v3) = tgtOf (F := Ideal) (m ((c.tc : Thread nD τ).loc main_arg1)) :=
  (W4_of_ne m ρ c main_v3 (by decide)).trans (W3_tgt m ρ c)
theorem W4_selfWeight : W4 m ρ c (Proc.devRef .tc main_v12) = selfWeight (F := Ideal) (m ((c.tc : Thread nD τ).loc main_arg1)) :=
  (W4_of_ne m ρ c main_v12 (by decide)).trans (W3_selfWeight m ρ c)
theorem W4_arg0 : W4 m ρ c (Proc.devRef .tc main_arg0) = (m ((c.tc : Thread nD τ).loc main_arg0)) :=
  (W4_of_ne m ρ c main_arg0 (by decide)).trans (W3_arg0 m ρ c)
theorem W4_arg4 : W4 m ρ c (Proc.devRef .tc main_arg4) = (m ((c.tc : Thread nD τ).loc main_arg4)) :=
  (W4_of_ne m ρ c main_arg4 (by decide)).trans (W3_arg4 m ρ c)
theorem W4_arg5 : W4 m ρ c (Proc.devRef .tc main_arg5) = (m ((c.tc : Thread nD τ).loc main_arg5)) :=
  (W4_of_ne m ρ c main_arg5 (by decide)).trans (W3_arg5 m ρ c)

/-! ## After the second region, over its result -/

set_option maxHeartbeats 4000000 in
theorem W5_mask : W5 m ρ c (Proc.devRef .tc main_v68) = mask (F := Ideal) (m ((c.tc : Thread nD τ).loc main_arg0)) := by
  show StableHlo.after hostOps2 (W4 m ρ c) (Proc.devRef .tc main_v68) = _
  after_results_simp
  rw [W4_arg0]
  rfl

set_option maxHeartbeats 4000000 in
theorem W5_secondLayer : W5 m ρ c (Proc.devRef .tc main_v69)
    = secondLayer (F := Ideal) (m ((c.tc : Thread nD τ).loc main_arg1)) (m ((c.tc : Thread nD τ).loc main_arg4)) (m ((c.tc : Thread nD τ).loc main_arg5)) (W4 m ρ c (Proc.devRef .tc main_v47)) := by
  show StableHlo.after hostOps2 (W4 m ρ c) (Proc.devRef .tc main_v69) = _
  after_results_simp
  rw [W4_src, W4_tgt, W4_weight, W4_selfWeight, W4_arg4, W4_arg5]
  rfl

set_option maxHeartbeats 4000000 in
theorem W5_zero : W5 m ρ c (Proc.devRef .tc main_cst_12) = constant (F := Ideal) S_ .f32 0x00000000#32 := by
  show StableHlo.after hostOps2 (W4 m ρ c) (Proc.devRef .tc main_cst_12) = _
  after_results_simp

set_option maxHeartbeats 4000000 in
/-- The result array at the end of the run: the masked second layer of what the second region left. The last three
    operations are read over the contents before them as a variable, so that nothing earlier is opened again. -/
theorem W6_result : W6 m ρ c (Proc.devRef .tc main_v70)
    = output (F := Ideal) (m ((c.tc : Thread nD τ).loc main_arg0)) (m ((c.tc : Thread nD τ).loc main_arg1)) (m ((c.tc : Thread nD τ).loc main_arg4)) (m ((c.tc : Thread nD τ).loc main_arg5)) (W4 m ρ c (Proc.devRef .tc main_v47)) := by
  have h68 := W5_mask m ρ c
  have h69 := W5_secondLayer m ρ c
  have h12 := W5_zero m ρ c
  show StableHlo.after hostOps2_1 (W5 m ρ c) (Proc.devRef .tc main_v70) = _
  generalize W5 m ρ c = V at h68 h69 h12 ⊢
  after_results
  rw [h68, h69, h12]
  rfl

end Cert.GNN.OnKernel

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Region0.lean ====
/-
  The first kernel region leaves the product `x · W1` in its output array.

  The region walks 25 grid points; point `t` reads rows `2000·t … 2000·t + 1999` of the first operand and the whole
  second operand, and writes the same rows of the output: their product into a zero accumulator. On the extended
  reals that block's entry `(p, q)` is the sum over `k` of `x (2000·t + p, k) · W1 (k, q)`, which is entry
  `(2000·t + p, q)` of the one whole product the host's operation computes. The 25 row blocks tile the output
  (row `r` lies in block `r / 2000`), so after the region the array is that whole product.
-/
import proofs.«145951_j57148834840787_1_alg».proof.Proof.Gen.KernelIdeal.Frame
import proofs.«145951_j57148834840787_1_alg».proof.Proof.Spec
import proofs.«145951_j57148834840787_1_alg».proof.Proof.LibDot
import proofs.«145951_j57148834840787_1_alg».proof.Proof.HostChain
import Idealize.ShloMosaic.Lib.Pipeline.Value
import Idealize.ShloMosaic.Lib.ValueIdx

set_option maxRecDepth 16384

noncomputable section

namespace Cert.GNN.OnKernel

open Cert.KernelIdeal Cert.KernelIdeal.Gen
open Idealize.ShloMosaic Idealize.ShloMosaic.TcCoe Idealize.ShloMosaic.ValueIdx Idealize.SL.Sem
open Idealize.ShloMosaic.Pipeline (Dat)

theorem offsets_zero : (![0, 0] : Fin 2 → Nat) = fun _ => 0 := funext fun a => by fin_cases a <;> rfl

/-- The block product's dimension record is the plain rows-by-columns one. -/
theorem blockDims : dot_S2000x1024_S1024x512_S2000x512_1_0_0_1_n_n = DotDims.plain 2000 1024 512 := rfl

/-- So is the whole product's. -/
theorem wholeDims : Cert.ReferenceIdeal.dot_S50000x1024_S1024x512_S50000x512_1_0_0_1_n_n = DotDims.plain 50000 1024 512 := rfl

/-- One block's product into the zero accumulator, at an entry: the sum over the contracted coordinate. -/
theorem blockProduct_apply (x0 : FVec Ideal S2000x1024 .bf16) (x1 : FVec Ideal S1024x512 .bf16) (p : Fin 2000) (q : Fin 512) :
    k0_pay1 (F := Ideal) x0 x1 (ix2 p q) = ∑ k : Fin 1024, x0 (ix2 p k) * x1 (ix2 k q) := by
  unfold k0_pay1
  rw [shapeCast_self, shapeCast_self, blockDims]
  exact matmul_plain_zero_apply none x0 x1 p q

/-- The whole product on the host, at an entry: the same sum. -/
theorem hostProduct_apply (x : FVec Ideal Cert.ReferenceIdeal.S50000x1024 .f32) (w : FVec Ideal Cert.ReferenceIdeal.S1024x512 .f32)
    (r : Fin 50000) (q : Fin 512) :
    hostProduct (F := Ideal) x w (ix2 r q) = ∑ k : Fin 1024, x (ix2 r k) * w (ix2 k q) := by
  unfold hostProduct
  rw [wholeDims]
  exact dotGeneral_plain_apply none _ x w r q

/-- The region's index maps over the grid: the first operand and the output move down one row block per point, the
    second operand stays. -/
theorem product_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product, for any contents `V` at the region's entry whose
    two operand arrays are `X` and `Wm`. -/
theorem product_flushed_of (V : (c : Dev nD) → (b : Ref sig .tc) → Buf (Elt Ideal) ((c : Thread nD τ).loc b)) (c : Dev nD)
    (X : FVec Ideal Cert.ReferenceIdeal.S50000x1024 .f32) (Wm : FVec Ideal Cert.ReferenceIdeal.S1024x512 .f32)
    (hX : V c main_v13 = X) (hW : V c main_v14 = Wm) (t : Fin cfg0.N) :
    (dat0 V c).flushed 2 t = ((cfg0.win 2).blk t).view.read (Elt Ideal) (hostProduct (F := Ideal) X Wm) := by
  show (cfg0.win 2).cut (grid0.coords t) ((dat0 V c).after 2 t) = _
  rw [after0_2]
  unfold out0_2
  rw [View.canon_unit_zero offsets_zero]
  simp only [View.ld_unit_zero (S := S2000x1024) offsets_zero, View.ld_unit_zero (S := S1024x512) offsets_zero]
  obtain ⟨e00, e01, e10, e11, e20, e21⟩ := product_indices t
  have ht : t.val < 25 := Nat.lt_of_lt_of_eq t.isLt N_0
  funext j
  obtain ⟨p, q, rfl⟩ : ∃ (p : Fin 2000) (q : Fin 512), j = ix2 p q := ⟨j 0, j 1, eq_ix2 j⟩
  have hp : p.val < 2000 := p.isLt
  -- the output block's entry (p, q) sits at row 2000·t + p of the array
  have hout : ((cfg0.win 2).blk t).view.emb (ix2 p q) = ix2 (⟨t.val * 2000 + p.val, by omega⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 512 + 1 * q.val = q.val; omega
  show k0_pay1 (F := Ideal) (iblk0 V c 0 t) (iblk0 V c 1 t) (ix2 p q)
    = hostProduct (F := Ideal) X Wm (((cfg0.win 2).blk t).view.emb (ix2 p q))
  rw [hout]
  refine (blockProduct_apply _ _ p q).trans ?_
  refine Eq.trans ?_ (hostProduct_apply _ _ _ q).symm
  refine Finset.sum_congr rfl fun k _ => ?_
  have hx : ((cfg0.win 0).blk t).view.emb (ix2 p k) = ix2 (⟨t.val * 2000 + p.val, by omega⟩ : Fin 50000) k := by
    funext a; apply Fin.ext
    match a with
    | ⟨0, _⟩ => show win0_0.index t (0 : Fin 2) * 2000 + 1 * p.val = t.val * 2000 + p.val; omega
    | ⟨1, _⟩ => show win0_0.index t (1 : Fin 2) * 1024 + 1 * k.val = k.val; omega
  have hw : ((cfg0.win 1).blk t).view.emb (ix2 k q) = ix2 k q := by
    funext a; apply Fin.ext
    match a with
    | ⟨0, _⟩ => show win0_1.index t (0 : Fin 2) * 1024 + 1 * k.val = k.val; omega
    | ⟨1, _⟩ => show win0_1.index t (1 : Fin 2) * 512 + 1 * q.val = q.val; omega
  have hxk : iblk0 V c 0 t (ix2 p k) = X (ix2 (⟨t.val * 2000 + p.val, by omega⟩ : Fin 50000) k) := by
    show V c main_v13 (((cfg0.win 0).blk t).view.emb (ix2 p k)) = _
    rw [hx, hX]
  have hwk : iblk0 V c 1 t (ix2 k q) = Wm (ix2 k q) := by
    show V c main_v14 (((cfg0.win 1).blk t).view.emb (ix2 k q)) = _
    rw [hw, hW]
  rw [hxk, hwk]

variable (m : (ℓ : Loc nD τ sig) → Buf (Elt Ideal) ℓ) (ρ : Dev nD → PrngReg) (c : Dev nD)

/-- An index of the output array is in point `t`'s block iff each coordinate is in the block's range. -/
theorem product_mem_block (t : Fin cfg0.N) (i : S50000x512.Idx) :
    i ∈ ((cfg0.win 2).blk t).view.set ↔ ∀ a : Fin 2, win0_2.index t a * S2000x512.size a ≤ (i a).val
      ∧ (i a).val < win0_2.index t a * S2000x512.size a + S2000x512.size a := by
  show i ∈ ((View.whole main_v15).slice (win0_2.rect t)).set ↔ _
  rw [View.set_slice_whole, Rect.mem_set_unit]
  exact Iff.rfl

/-- Every entry of the output array is in some point's block: row `r` in block `r / 2000`. -/
theorem product_cover (i : S50000x512.Idx) :
    ∃ t : Fin cfg0.N, (cfg0.win 2).flush t = true ∧ i ∈ ((cfg0.win 2).blk t).view.set := by
  have hi0 : (i 0).val < 50000 := (i 0).isLt
  have hi1 : (i 1).val < 512 := (i 1).isLt
  have hN : (i 0).val / 2000 < cfg0.N := by show _ < grid0.N; rw [N_0]; omega
  obtain ⟨-, -, -, -, e20, e21⟩ := product_indices ⟨(i 0).val / 2000, hN⟩
  refine ⟨⟨(i 0).val / 2000, hN⟩, flush0_2 _, ?_⟩
  rw [product_mem_block]
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, hN⟩ (1 : Fin 2) * 512 ≤ (i 1).val
      ∧ (i 1).val < win0_2.index ⟨(i 0).val / 2000, hN⟩ (1 : Fin 2) * 512 + 512
    rw [e21]; omega

/-- After the first region its output array holds the whole product of the first and third arguments. -/
theorem W2_product : W2 m ρ c (Proc.devRef .tc main_v15)
    = hostProduct (F := Ideal) (m ((c.tc : Thread nD τ).loc main_arg0)) (m ((c.tc : Thread nD τ).loc main_arg2)) :=
  (W2_arr m ρ c 2).trans
    ((dat0 (V1 m ρ) c).arrAt_eq_of_cover 2 _
      (fun t _ => product_flushed_of (V1 m ρ) c _ _ (W1_x m ρ c) (W1_w1 m ρ c) t) product_cover)

end Cert.GNN.OnKernel

end
-- ==== Proof.Region1.lean ====
/-
  The second kernel region leaves the clamped first layer in its output array.

  The region walks 25 grid points; point `t` reads rows `2000·t … 2000·t + 1999` of the neighbour sum and of the self
  term and the one bias row, and writes the same rows of the output: entry `(p, q)` is
  `max (a (2000·t + p, q) + s (2000·t + p, q) + b1 q) 0`, which is entry `(2000·t + p, q)` of the one whole-array
  clamp of Spec.lean (the bias reaches it as a row cast there and as two broadcasts here: the same entry `b1 q`).
  The 25 row blocks tile the output, so after the region the array is that clamp.
-/
import proofs.«145951_j57148834840787_1_alg».proof.Proof.Gen.KernelIdeal.Frame
import proofs.«145951_j57148834840787_1_alg».proof.Proof.Spec
import proofs.«145951_j57148834840787_1_alg».proof.Proof.HostChain
import Idealize.ShloMosaic.Lib.Pipeline.Value
import Idealize.ShloMosaic.Lib.ValueIdx
import Idealize.ShloMosaic.Lib.ValueLayout

set_option maxRecDepth 16384

noncomputable section

namespace Cert.GNN.OnKernel

open Cert.KernelIdeal Cert.KernelIdeal.Gen
open Idealize.ShloMosaic Idealize.ShloMosaic.TcCoe Idealize.ShloMosaic.ValueIdx Idealize.SL.Sem
open Idealize.ShloMosaic.Pipeline (Dat)

theorem offsets_zero' : (![0, 0] : Fin 2 → Nat) = fun _ => 0 := funext fun a => by fin_cases a <;> rfl

/-- One block of the clamp, at an entry. -/
theorem clampBlock_apply (a s : FVec Ideal S2000x512 .f32) (b : FVec Ideal S1x512 .f32) (p : Fin 2000) (q : Fin 512) :
    k1_pay1 (F := Ideal) a s b (ix2 p q)
      = FloatOps.maximumf (FloatOps.addf (FloatOps.addf (a (ix2 p q)) (s (ix2 p q))) (b (ix2 (0 : Fin 1) q)))
          (FloatOps.ofBits .f32 0x00000000#32) := by
  unfold k1_pay1
  rw [shapeCast_self, shapeCast_self, shapeCast_self]
  simp only [maximumf, addf, broadcast]
  rw [broadcastTo_1b_ab_apply]

/-- The whole-array clamp, at an entry. -/
theorem clamp_apply (A S : FVec Ideal Cert.ReferenceIdeal.S50000x512 .f32) (b1 : FVec Ideal Cert.ReferenceIdeal.S512 .f32)
    (r : Fin 50000) (q : Fin 512) :
    clamp (F := Ideal) A S b1 (ix2 r q)
      = FloatOps.maximumf (FloatOps.addf (FloatOps.addf (A (ix2 r q)) (S (ix2 r q))) (b1 (ix1 q)))
          (FloatOps.ofBits .f32 0x00000000#32) := by
  unfold clamp
  simp only [maximumf, addf]
  rw [broadcastInDim_apply (![0, 1] : Fin 2 → Fin 2) Cert.ReferenceIdeal.Gen.bcast_S1x512_S50000x512_0_1 _ (ix2 r q) (ix2 (0 : Fin 1) q)
      (fun a => by match a with | ⟨0, _⟩ => rfl | ⟨1, _⟩ => rfl),
    broadcastInDim_apply (![1] : Fin 1 → Fin 2) Cert.ReferenceIdeal.Gen.bcast_S512_S1x512_1 b1 (ix2 (0 : Fin 1) q) (ix1 q)
      (fun a => by match a with | ⟨0, _⟩ => rfl)]
  rfl

/-- The region's index maps over the grid: the two full operands and the output move down one row block per point,
    the bias row stays. -/
theorem clamp_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole-array clamp, for any contents `V` at the region's entry
    whose bias-row array is the bias `b1` cast to one row. -/
theorem clamp_flushed_of (V : (c : Dev nD) → (b : Ref sig .tc) → Buf (Elt Ideal) ((c : Thread nD τ).loc b)) (c : Dev nD)
    (b1 : FVec Ideal Cert.ReferenceIdeal.S512 .f32)
    (hb1 : V c main_v46 = shapeCast S1x512 b1 shapeCasts_S512_S1x512) (t : Fin cfg1.N) :
    (dat1 V c).flushed 3 t
      = ((cfg1.win 3).blk t).view.read (Elt Ideal) (clamp (F := Ideal) (V c main_v43) (V c main_v45) b1) := by
  show (cfg1.win 3).cut (grid1.coords t) ((dat1 V c).after 3 t) = _
  rw [after1_3]
  unfold out1_3
  rw [View.canon_unit_zero offsets_zero']
  simp only [View.ld_unit_zero (S := S2000x512) offsets_zero', View.ld_unit_zero (S := S1x512) offsets_zero']
  obtain ⟨e00, e01, e10, e11, e20, e21, e30, e31⟩ := clamp_indices t
  have ht : t.val < 25 := Nat.lt_of_lt_of_eq t.isLt N_1
  funext j
  obtain ⟨p, q, rfl⟩ : ∃ (p : Fin 2000) (q : Fin 512), j = ix2 p q := ⟨j 0, j 1, eq_ix2 j⟩
  have hp : p.val < 2000 := p.isLt
  have hout : ((cfg1.win 3).blk t).view.emb (ix2 p q) = ix2 (⟨t.val * 2000 + p.val, by omega⟩ : Fin 50000) q := by
    funext a; apply Fin.ext
    match a with
    | ⟨0, _⟩ => show win1_3.index t (0 : Fin 2) * 2000 + 1 * p.val = t.val * 2000 + p.val; omega
    | ⟨1, _⟩ => show win1_3.index t (1 : Fin 2) * 512 + 1 * q.val = q.val; omega
  have ha : ((cfg1.win 0).blk t).view.emb (ix2 p q) = ix2 (⟨t.val * 2000 + p.val, by omega⟩ : Fin 50000) q := by
    funext a; apply Fin.ext
    match a with
    | ⟨0, _⟩ => show win1_0.index t (0 : Fin 2) * 2000 + 1 * p.val = t.val * 2000 + p.val; omega
    | ⟨1, _⟩ => show win1_0.index t (1 : Fin 2) * 512 + 1 * q.val = q.val; omega
  have hs : ((cfg1.win 1).blk t).view.emb (ix2 p q) = ix2 (⟨t.val * 2000 + p.val, by omega⟩ : Fin 50000) q := by
    funext a; apply Fin.ext
    match a with
    | ⟨0, _⟩ => show win1_1.index t (0 : Fin 2) * 2000 + 1 * p.val = t.val * 2000 + p.val; omega
    | ⟨1, _⟩ => show win1_1.index t (1 : Fin 2) * 512 + 1 * q.val = q.val; omega
  have hb : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 512 + 1 * q.val = q.val; omega
  show k1_pay1 (F := Ideal) (iblk1 V c 0 t) (iblk1 V c 1 t) (iblk1 V c 2 t) (ix2 p q)
    = clamp (F := Ideal) (V c main_v43) (V c main_v45) b1 (((cfg1.win 3).blk t).view.emb (ix2 p q))
  rw [hout]
  refine (clampBlock_apply _ _ _ p q).trans ?_
  refine Eq.trans ?_ (clamp_apply _ _ _ _ q).symm
  have h1 : iblk1 V c 0 t (ix2 p q) = V c main_v43 (ix2 (⟨t.val * 2000 + p.val, by omega⟩ : Fin 50000) q) := by
    show V c main_v43 (((cfg1.win 0).blk t).view.emb (ix2 p q)) = _
    rw [ha]
  have h2 : iblk1 V c 1 t (ix2 p q) = V c main_v45 (ix2 (⟨t.val * 2000 + p.val, by omega⟩ : Fin 50000) q) := by
    show V c main_v45 (((cfg1.win 1).blk t).view.emb (ix2 p q)) = _
    rw [hs]
  have h3 : iblk1 V c 2 t (ix2 (0 : Fin 1) q) = b1 (ix1 q) := by
    show V c main_v46 (((cfg1.win 2).blk t).view.emb (ix2 (0 : Fin 1) q)) = _
    rw [hb, hb1, shapeCast_a_1a_apply]
  rw [h1, h2, h3]

variable (m : (ℓ : Loc nD τ sig) → Buf (Elt Ideal) ℓ) (ρ : Dev nD → PrngReg) (c : Dev nD)

/-- An index of the output array is in point `t`'s block iff each coordinate is in the block's range. -/
theorem clamp_mem_block (t : Fin cfg1.N) (i : S50000x512.Idx) :
    i ∈ ((cfg1.win 3).blk t).view.set ↔ ∀ a : Fin 2, win1_3.index t a * S2000x512.size a ≤ (i a).val
      ∧ (i a).val < win1_3.index t a * S2000x512.size a + S2000x512.size a := by
  show i ∈ ((View.whole main_v47).slice (win1_3.rect t)).set ↔ _
  rw [View.set_slice_whole, Rect.mem_set_unit]
  exact Iff.rfl

/-- Every entry of the output array is in some point's block: row `r` in block `r / 2000`. -/
theorem clamp_cover (i : S50000x512.Idx) :
    ∃ t : Fin cfg1.N, (cfg1.win 3).flush t = true ∧ i ∈ ((cfg1.win 3).blk t).view.set := by
  have hi0 : (i 0).val < 50000 := (i 0).isLt
  have hi1 : (i 1).val < 512 := (i 1).isLt
  have hN : (i 0).val / 2000 < cfg1.N := by show _ < grid1.N; rw [N_1]; omega
  obtain ⟨-, -, -, -, -, -, e30, e31⟩ := clamp_indices ⟨(i 0).val / 2000, hN⟩
  refine ⟨⟨(i 0).val / 2000, hN⟩, flush1_3 _, ?_⟩
  rw [clamp_mem_block]
  intro a
  match a with
  | ⟨0, _⟩ =>
    show win1_3.index ⟨(i 0).val / 2000, hN⟩ (0 : Fin 2) * 2000 ≤ (i 0).val
      ∧ (i 0).val < win1_3.index ⟨(i 0).val / 2000, hN⟩ (0 : Fin 2) * 2000 + 2000
    rw [e30]; show (i 0).val / 2000 * 2000 ≤ (i 0).val ∧ (i 0).val < (i 0).val / 2000 * 2000 + 2000; omega
  | ⟨1, _⟩ =>
    show win1_3.index ⟨(i 0).val / 2000, hN⟩ (1 : Fin 2) * 512 ≤ (i 1).val
      ∧ (i 1).val < win1_3.index ⟨(i 0).val / 2000, hN⟩ (1 : Fin 2) * 512 + 512
    rw [e31]; omega

/-- After the second region its output array holds the clamp of the neighbour sum, the self term and the bias. -/
theorem W4_clamp : W4 m ρ c (Proc.devRef .tc main_v47)
    = clamp (F := Ideal) (W3 m ρ c (Proc.devRef .tc main_v43)) (W3 m ρ c (Proc.devRef .tc main_v45))
        (m ((c.tc : Thread nD τ).loc main_arg3)) :=
  (W4_arr m ρ c 3).trans
    ((dat1 (V3 m ρ) c).arrAt_eq_of_cover 3 _
      (fun t _ => clamp_flushed_of (V3 m ρ) c _ (W3_biasRow m ρ c) t) clamp_cover)

end Cert.GNN.OnKernel

end
-- ==== Proof.RefValue.lean ====
/-
  The reference computes the network on the host product `x · W1`.

  Its run ends with the result array at the composed term of its host operations; that term is, operation for
  operation, the named chain of Spec.lean applied to `Host.dotGeneral … x W1`.
-/
import proofs.«145951_j57148834840787_1_alg».proof.Proof.Gen.ReferenceIdeal.Run
import proofs.«145951_j57148834840787_1_alg».proof.Proof.Spec

set_option maxRecDepth 16384

noncomputable section

namespace Cert.GNN

open Cert.ReferenceIdeal Cert.ReferenceIdeal.Gen Idealize.ShloMosaic Idealize.SL.Sem

variable {F : FTy → Type} [FloatOps F]

/-- The reference's result is the network on the host product of its first and third arguments. -/
theorem reference_result (m : (ℓ : Loc nD τ sig) → Buf (Elt F) ℓ) (c : Dev nD) :
    Cert.ReferenceIdeal.Value.res_main_v89 m c
      = network (F := F) (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (hostProduct (m ((c.tc : Thread nD τ).loc main_arg0)) (m ((c.tc : Thread nD τ).loc main_arg2))) := by
  unfold Cert.ReferenceIdeal.Value.res_main_v89 network output mask secondLayer clamp neighbours selfTerm weight selfWeight dinv col wrap srcOf tgtOf hostProduct
  rfl

end Cert.GNN

end
-- ==== Proof.lean ====
/-
  A two-layer graph convolution, kernel against reference, equal over the extended reals.

  Both programs compute, from node features `x`, an edge list, and the weights `W1, b1, W2, b2`, the network named in
  Proof/Spec.lean: with `d = rsqrt (1 + in-degree)`, a layer sends `h` to the scatter-add over the edges of
  `d[src] · d[tgt] · h[src]` plus `h · d · d`; the first layer acts on `x · W1`, adds `b1` and clamps at zero, the second
  acts on the clamped layer times `W2` and adds `b2`; the result is kept on the nodes whose first feature is 1.

  The reference does all of it with host operations. The kernel program forms `x · W1` in a kernel region, 2000 rows
  per grid point, from operands changed to a narrower float format first (the identity on the extended reals), and
  forms the clamp in a second region, again 2000 rows per grid point; everything else is the same host operations
  in the same order. So the proof has three parts: each region leaves in its output array what the reference's
  host operation computes (Proof/Region0.lean: a row block of a product is the product's row block, both the same sum
  over the contracted coordinate; Proof/Region1.lean: the clamp is entrywise), the kernel program's host operations
  are the named chain (Proof/HostChain.lean), and so is the reference's result term (Proof/RefValue.lean). No law of
  arithmetic beyond reindexing a finite sum is used, so the inputs' finiteness is never opened.
-/
import proofs.«145951_j57148834840787_1_alg».proof.Defs
import proofs.«145951_j57148834840787_1_alg».proof.Proof.Gen.Kernel
import proofs.«145951_j57148834840787_1_alg».proof.Proof.Gen.Kernel.Frame
import proofs.«145951_j57148834840787_1_alg».proof.Proof.Gen.KernelIdeal
import proofs.«145951_j57148834840787_1_alg».proof.Proof.Gen.KernelIdeal.Frame
import proofs.«145951_j57148834840787_1_alg».proof.Proof.Gen.ReferenceIdeal
import proofs.«145951_j57148834840787_1_alg».proof.Proof.Gen.Pre_finite_inputs
import proofs.«145951_j57148834840787_1_alg».proof.Proof.Gen.ReferenceIdeal.Run
import proofs.«145951_j57148834840787_1_alg».proof.Proof.KeptRun
import proofs.«145951_j57148834840787_1_alg».proof.Proof.HostChain
import proofs.«145951_j57148834840787_1_alg».proof.Proof.Region0
import proofs.«145951_j57148834840787_1_alg».proof.Proof.Region1
import proofs.«145951_j57148834840787_1_alg».proof.Proof.RefValue
import Idealize.ShloMosaic.Adequacy
import Idealize.ShloMosaic.Init

noncomputable section

namespace Cert.Proof

open Idealize.ShloMosaic Idealize.ShloMosaic.TcCoe Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-! ## The kernel program's result -/

section
open Cert.KernelIdeal Cert.KernelIdeal.Gen Cert.GNN Cert.GNN.OnKernel

/-- The kernel program ends with its result array at the network on the host product of its first and third
    arguments: the first region's array is that product, the second's the clamp of the layer built on it, and the
    host operations before, between and after are the named chain. -/
theorem kernel_result (m : (ℓ : Loc nD τ sig) → Buf (Elt Ideal) ℓ) (ρ : Dev nD → PrngReg) (c : Dev nD) :
    W6 m ρ c (Proc.devRef .tc main_v70)
      = network (F := Ideal) (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (hostProduct (F := Ideal) (m ((c.tc : Thread nD τ).loc main_arg0)) (m ((c.tc : Thread nD τ).loc main_arg2))) := by
  rw [W6_result, W4_clamp, W3_neighbours, W3_selfTerm, W2_product]
  rfl

end

/-! ## The claims -/

/-- Both runs end with the result at the network on `x · W1` of arguments that agree. -/
theorem algebraic : Cert.algebraic_KernelIdeal_ReferenceIdeal := by
  intro m ρ m' ρ' _ hagree
  refine ⟨fun c => Cert.KernelIdeal.Gen.W6 m ρ c (Proc.devRef .tc Cert.KernelIdeal.main_v70),
    Cert.KernelIdeal.Kept.run_kept m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.GNN.reference_result, h0, h1, h2, h3, h4, h5]
  exact (kernel_result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
